-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x128 : Shape := ⟨2, ![50000, 128]⟩
abbrev S500x128 : Shape := ⟨2, ![500, 128]⟩
abbrev S32x3 : Shape := ⟨2, ![32, 3]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S500x128 : S_.BroadcastsInDim S500x128 (![] : Fin 0 → Fin S500x128.rank)
  reducesTo_S500x128_S_d0_1 : S500x128.ReducesTo [0, 1] S_

variable [Facts]

def fn_part1 {F : FTy → Type} [FloatOps F] (main_v13 : IVec S_ 1) (main_v16 : IVec S500x128 1) : IVec S_ 1 :=
  let main_c_5 : IVec S_ 1 := constantI S_ 1 1#1
  let main_v17 : IVec S_ 1 := (fun x v => Host.reduce IntOp.andi x v reducesTo_S500x128_S_d0_1 h_S_) main_v16 main_c_5
  let main_v18 : IVec S_ 1 := andi main_v13 main_v17
  main_v18

def fn {F : FTy → Type} [FloatOps F] (main_arg0 : FVec F S50000x256 .f32) (main_arg1 : FVec F S50000x128 .f32) (main_arg2 : FVec F S500x128 .f32) (main_arg3 : FVec F S500x128 .f32) (main_arg4 : IVec S32x3 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S500x128 .f32 := Host.absf main_arg3
  let main_cst_4 : FVec F S_ .f32 := constant S_ .f32 0x7F800000#32
  let main_v15 : FVec F S500x128 .f32 := broadcastInDim S500x128 ![] bcast_S_S500x128 main_cst_4
  let main_v16 : IVec S500x128 1 := cmpf .olt main_v14 main_v15
  fn_part1 (F := F) main_v13 main_v16
-- ==== Kernel.lean ====
abbrev S50000x256 : Shape := ⟨2, ![50000, 256]⟩
abbrev S50000x128 : Shape := ⟨2, ![50000, 128]⟩
abbrev S500x128 : Shape := ⟨2, ![500, 128]⟩
abbrev S32x3 : Shape := ⟨2, ![32, 3]⟩
abbrev S32x1 : Shape := ⟨2, ![32, 1]⟩
abbrev S32 : Shape := ⟨1, ![32]⟩
abbrev S_ : Shape := ⟨0, ![]⟩
abbrev S32x256 : Shape := ⟨2, ![32, 256]⟩
abbrev S32x128 : Shape := ⟨2, ![32, 128]⟩
abbrev S50176x256 : Shape := ⟨2, ![50176, 256]⟩
abbrev S50176x128 : Shape := ⟨2, ![50176, 128]⟩
abbrev S32x50176 : Shape := ⟨2, ![32, 50176]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S32x1x128 : Shape := ⟨3, ![32, 1, 128]⟩
abbrev S1x256x128 : Shape := ⟨3, ![1, 256, 128]⟩
abbrev S32x256x128 : Shape := ⟨3, ![32, 256, 128]⟩
abbrev S32x50000 : Shape := ⟨2, ![32, 50000]⟩

abbrev nBuf : Space → Nat
  | .hbm => 95
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S500x128, .f32⟩
  | .hbm, ⟨3, _⟩ => ⟨S500x128, .f32⟩
  | .hbm, ⟨4, _⟩ => ⟨S32x3, .i32⟩
  | .hbm, ⟨5, _⟩ => ⟨S32x1, .i32⟩
  | .hbm, ⟨6, _⟩ => ⟨S32, .i32⟩
  | .hbm, ⟨7, _⟩ => ⟨S32x1, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i1⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S32x1, .i32⟩
  | .hbm, ⟨17, _⟩ => ⟨S32x256, .f32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S32x128, .f32⟩
  | .hbm, ⟨27, _⟩ => ⟨S_, .f32⟩
  | .hbm, ⟨28, _⟩ => ⟨S32x128, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x128, .i1⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S32x128, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S_, .i32⟩
  | .hbm, ⟨42, _⟩ => ⟨S32, .i32⟩
  | .hbm, ⟨43, _⟩ => ⟨S32, .i1⟩
  | .hbm, ⟨44, _⟩ => ⟨S_, .i32⟩
  | .hbm, ⟨45, _⟩ => ⟨S32, .i32⟩
  | .hbm, ⟨46, _⟩ => ⟨S32, .i32⟩
  | .hbm, ⟨47, _⟩ => ⟨S32, .i32⟩
  | .hbm, ⟨48, _⟩ => ⟨S32x1, .i32⟩
  | .hbm, ⟨49, _⟩ => ⟨S32x128, .f32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S32, .i32⟩
  | .hbm, ⟨57, _⟩ => ⟨S32x1, .i32⟩
  | .hbm, ⟨58, _⟩ => ⟨S32x128, .f32⟩
  | .hbm, ⟨59, _⟩ => ⟨S_, .f32⟩
  | .hbm, ⟨60, _⟩ => ⟨S32x128, .f32⟩
  | .hbm, ⟨61, _⟩ => ⟨S32x128, .f32⟩
  | .hbm, ⟨62, _⟩ => ⟨S32x128, .f32⟩
  | .hbm, ⟨63, _⟩ => ⟨S32x128, .f32⟩
  | .hbm, ⟨64, _⟩ => ⟨S32x128, .i1⟩
  | .hbm, ⟨65, _⟩ => ⟨S32x128, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S32x128, .f32⟩
  | .hbm, ⟨70, _⟩ => ⟨S32x128, .f32⟩
  | .hbm, ⟨71, _⟩ => ⟨S32x128, .f32⟩
  | .hbm, ⟨72, _⟩ => ⟨S32x128, .f32⟩
  | .hbm, ⟨73, _⟩ => ⟨S32x128, .f32⟩
  | .hbm, ⟨74, _⟩ => ⟨S32x128, .f32⟩
  | .hbm, ⟨75, _⟩ => ⟨S32x128, .f32⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S32x128, .f32⟩
  | .hbm, ⟨80, _⟩ => ⟨S32x128, .f32⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S_, .f32⟩
  | .hbm, ⟨85, _⟩ => ⟨S32, .f32⟩
  | .hbm, ⟨86, _⟩ => ⟨S32x1, .f32⟩
  | .hbm, ⟨87, _⟩ => ⟨S_, .i32⟩
  | .hbm, ⟨88, _⟩ => ⟨S_, .f32⟩
  | .hbm, ⟨89, _⟩ => ⟨S50176x256, .f32⟩
  | .hbm, ⟨90, _⟩ => ⟨S_, .i32⟩
  | .hbm, ⟨91, _⟩ => ⟨S_, .f32⟩
  | .hbm, ⟨92, _⟩ => ⟨S50176x128, .f32⟩
  | .hbm, ⟨93, _⟩ => ⟨S32x50176, .f32⟩
  | .hbm, ⟨94, _⟩ => ⟨S32x50000, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S32x128, .f32⟩
  | .local _ .vmem, ⟨5, _⟩ => ⟨S32x128, .f32⟩
  | .local _ .vmem, ⟨6, _⟩ => ⟨S32x1, .f32⟩
  | .local _ .vmem, ⟨7, _⟩ => ⟨S32x256, .f32⟩
  | .local _ .vmem, ⟨8, _⟩ => ⟨S32x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst : Ref sig .tc := ⟨.hbm, 84, rfl⟩
abbrev main_v45 : Ref sig .tc := ⟨.hbm, 85, rfl⟩
abbrev main_v46 : Ref sig .tc := ⟨.hbm, 86, rfl⟩
abbrev main_c_7 : Ref sig .tc := ⟨.hbm, 87, rfl⟩
abbrev main_call2_v0 : Ref sig .tc := ⟨.hbm, 88, rfl⟩
abbrev main_v47 : Ref sig .tc := ⟨.hbm, 89, rfl⟩
abbrev main_c_8 : Ref sig .tc := ⟨.hbm, 90, rfl⟩
abbrev main_call3_v0 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S32x3_S32x1_0_0 : S32x3.Slices ![0, 0] S32x1
  shapeCasts_S32x1_S32 : S32x1.ShapeCasts S32
  slices_S32x3_S32x1_0_1 : S32x3.Slices ![0, 1] S32x1
  bcast_S_S32 : S_.BroadcastsInDim S32 (![] : Fin 0 → Fin S32.rank)
  bcast_S32_S32x1_0 : S32.BroadcastsInDim S32x1 (![0] : Fin 1 → Fin S32x1.rank)
  bcast_S_S32x128 : S_.BroadcastsInDim S32x128 (![] : Fin 0 → Fin S32x128.rank)
  slices_S32x256_S32x128_0_0 : S32x256.Slices ![0, 0] S32x128
  slices_S32x256_S32x128_0_128 : S32x256.Slices ![0, 128] S32x128
  reducesTo_S32x128_S32_d1 : S32x128.ReducesTo [1] S32
  h_S_ : 0 < S_.numel
  pads_S50000x256_S50176x256_01760_000 : S50000x256.Pads (![0, 0] : Fin 2 → Nat) ![176, 0] ![0, 0] S50176x256
  pads_S50000x128_S50176x128_01760_000 : S50000x128.Pads (![0, 0] : Fin 2 → Nat) ![176, 0] ![0, 0] S50176x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x256_o0_0_S256x128 : S256x256.Slices ![0, 0] S256x128
  slices_S256x256_o0_128_S256x128 : S256x256.Slices ![0, 128] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  transposes_S256x1_p1_0_S1x256 : S256x1.Transposes [1, 0] S1x256
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x128_S32x1x128 : S32x128.ShapeCasts S32x1x128
  shapeCasts_S256x128_S1x256x128 : S256x128.ShapeCasts S1x256x128
  broadcasts_S32x1x128_S32x256x128 : S32x1x128.Broadcasts S32x256x128
  broadcasts_S1x256x128_S32x256x128 : S1x256x128.Broadcasts S32x256x128
  reduces_S32x256x128_S32x256 : S32x256x128.Reduces [2] S32x256
  broadcasts_S32x1_S32x256 : S32x1.Broadcasts S32x256
  broadcasts_S1x256_S32x256 : S1x256.Broadcasts S32x256
  inb_S32x256_S32x256_0_0 : ∀ a, (![0, 0] : Fin 2 → Nat) a + S32x256.size a ≤ S32x256.size a
  h_S32x256 : 0 < S32x256.numel
  slices_S32x50176_S32x50000_0_0 : S32x50176.Slices ![0, 0] S32x50000
  gather_S50000x256_S32x1_S32x256_1_0_n_n_0_1_1256_wf : GatherDims.WF S50000x256 S32x1 S32x256 [1] [0] [] [0] [] 1 ![1, 256]
  gather_S50000x128_S32x1_S32x128_1_0_n_n_0_1_1128_wf : GatherDims.WF S50000x128 S32x1 S32x128 [1] [0] [] [0] [] 1 ![1, 128]
  gather_S500x128_S32x1_S32x128_1_0_n_n_0_1_1128_wf : GatherDims.WF S500x128 S32x1 S32x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S50176x256.size a
  hwx0_0 : ∀ i : grid0.Coords, EltTy.bits .f32 = 32 ∨ (Rect.block (s := S50176x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S50176x128.size a
  hwx0_1 : ∀ i : grid0.Coords, EltTy.bits .f32 = 32 ∨ (Rect.block (s := S50176x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x50176.size a
  hwx0_5 : ∀ i : grid0.Coords, EltTy.bits .f32 = 32 ∨ (Rect.block (s := S32x50176) S32x256.size (cc0_transform_5 i) (hinb0_5 i)).WholeWords (EltTy.packing .f32)

variable [Facts₀]

def gather_S50000x256_S32x1_S32x256_1_0_n_n_0_1_1256 : GatherDims S50000x256 S32x1 S32x256 where
  offsetDims := [1]
  collapsedSliceDims := [0]
  operandBatchingDims := []
  startIndicesBatchingDims := []
  startIndexMap := [0]
  indexVectorDim := 1
  sliceSizes := ![1, 256]
  wf := gather_S50000x256_S32x1_S32x256_1_0_n_n_0_1_1256_wf
def gather_S50000x128_S32x1_S32x128_1_0_n_n_0_1_1128 : GatherDims S50000x128 S32x1 S32x128 where
  offsetDims := [1]
  collapsedSliceDims := [0]
  operandBatchingDims := []
  startIndicesBatchingDims := []
  startIndexMap := [0]
  indexVectorDim := 1
  sliceSizes := ![1, 128]
  wf := gather_S50000x128_S32x1_S32x128_1_0_n_n_0_1_1128_wf
def gather_S500x128_S32x1_S32x128_1_0_n_n_0_1_1128 : GatherDims S500x128 S32x1 S32x128 where
  offsetDims := [1]
  collapsedSliceDims := [0]
  operandBatchingDims := []
  startIndicesBatchingDims := []
  startIndexMap := [0]
  indexVectorDim := 1
  sliceSizes := ![1, 128]
  wf := gather_S500x128_S32x1_S32x128_1_0_n_n_0_1_1128_wf

abbrev win0_0 : Pipeline.Window sig grid0 :=
  Pipeline.Window.ofSpec (Memref.whole main_v47) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S50000x128 : Shape := ⟨2, ![50000, 128]⟩
abbrev S500x128 : Shape := ⟨2, ![500, 128]⟩
abbrev S32x3 : Shape := ⟨2, ![32, 3]⟩
abbrev S_ : Shape := ⟨0, ![]⟩
abbrev S32x1 : Shape := ⟨2, ![32, 1]⟩
abbrev S32 : Shape := ⟨1, ![32]⟩
abbrev S32x256 : Shape := ⟨2, ![32, 256]⟩
abbrev S32x128 : Shape := ⟨2, ![32, 128]⟩
abbrev S32x1x128 : Shape := ⟨3, ![32, 1, 128]⟩
abbrev S1x50000x128 : Shape := ⟨3, ![1, 50000, 128]⟩
abbrev S32x50000x128 : Shape := ⟨3, ![32, 50000, 128]⟩
abbrev S32x50000 : Shape := ⟨2, ![32, 50000]⟩
abbrev S50000 : Shape := ⟨1, ![50000]⟩
abbrev S1x50000 : Shape := ⟨2, ![1, 50000]⟩

abbrev nBuf : Space → Nat
  | .hbm => 126
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S500x128, .f32⟩
  | .hbm, ⟨3, _⟩ => ⟨S500x128, .f32⟩
  | .hbm, ⟨4, _⟩ => ⟨S32x3, .i32⟩
  | .hbm, ⟨5, _⟩ => ⟨S50000x128, .f32⟩
  | .hbm, ⟨6, _⟩ => ⟨S50000x128, .f32⟩
  | .hbm, ⟨7, _⟩ => ⟨S_, .f32⟩
  | .hbm, ⟨8, _⟩ => ⟨S50000x128, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S50000x128, .i1⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S32x1, .i32⟩
  | .hbm, ⟨22, _⟩ => ⟨S32, .i32⟩
  | .hbm, ⟨23, _⟩ => ⟨S32x1, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S32x1, .i32⟩
  | .hbm, ⟨33, _⟩ => ⟨S32x256, .f32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S32x1, .i32⟩
  | .hbm, ⟨42, _⟩ => ⟨S32x128, .f32⟩
  | .hbm, ⟨43, _⟩ => ⟨S_, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S32x128, .i1⟩
  | .hbm, ⟨49, _⟩ => ⟨S32x128, .f32⟩
  | .hbm, ⟨50, _⟩ => ⟨S32x128, .f32⟩
  | .hbm, ⟨51, _⟩ => ⟨S32x128, .f32⟩
  | .hbm, ⟨52, _⟩ => ⟨S32x128, .f32⟩
  | .hbm, ⟨53, _⟩ => ⟨S32x128, .f32⟩
  | .hbm, ⟨54, _⟩ => ⟨S32x128, .f32⟩
  | .hbm, ⟨55, _⟩ => ⟨S32x128, .f32⟩
  | .hbm, ⟨56, _⟩ => ⟨S32x128, .f32⟩
  | .hbm, ⟨57, _⟩ => ⟨S_, .i32⟩
  | .hbm, ⟨58, _⟩ => ⟨S32, .i32⟩
  | .hbm, ⟨59, _⟩ => ⟨S32, .i1⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32, .i32⟩
  | .hbm, ⟨64, _⟩ => ⟨S32x1, .i32⟩
  | .hbm, ⟨65, _⟩ => ⟨S32x128, .f32⟩
  | .hbm, ⟨66, _⟩ => ⟨S_, .i32⟩
  | .hbm, ⟨67, _⟩ => ⟨S32, .i32⟩
  | .hbm, ⟨68, _⟩ => ⟨S32, .i1⟩
  | .hbm, ⟨69, _⟩ => ⟨S_, .i32⟩
  | .hbm, ⟨70, _⟩ => ⟨S32, .i32⟩
  | .hbm, ⟨71, _⟩ => ⟨S32, .i32⟩
  | .hbm, ⟨72, _⟩ => ⟨S32, .i32⟩
  | .hbm, ⟨73, _⟩ => ⟨S32x1, .i32⟩
  | .hbm, ⟨74, _⟩ => ⟨S32x128, .f32⟩
  | .hbm, ⟨75, _⟩ => ⟨S_, .f32⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S32x128, .f32⟩
  | .hbm, ⟨80, _⟩ => ⟨S32x128, .i1⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S32x128, .f32⟩
  | .hbm, ⟨85, _⟩ => ⟨S32x128, .f32⟩
  | .hbm, ⟨86, _⟩ => ⟨S32x128, .f32⟩
  | .hbm, ⟨87, _⟩ => ⟨S32x128, .f32⟩
  | .hbm, ⟨88, _⟩ => ⟨S32x128, .f32⟩
  | .hbm, ⟨89, _⟩ => ⟨S32x128, .f32⟩
  | .hbm, ⟨90, _⟩ => ⟨S32x128, .f32⟩
  | .hbm, ⟨91, _⟩ => ⟨S32x128, .f32⟩
  | .hbm, ⟨92, _⟩ => ⟨S32x128, .f32⟩
  | .hbm, ⟨93, _⟩ => ⟨S32x128, .f32⟩
  | .hbm, ⟨94, _⟩ => ⟨S32x128, .f32⟩
  | .hbm, ⟨95, _⟩ => ⟨S32x128, .f32⟩
  | .hbm, ⟨96, _⟩ => ⟨S32x128, .f32⟩
  | .hbm, ⟨97, _⟩ => ⟨S32x128, .f32⟩
  | .hbm, ⟨98, _⟩ => ⟨S32x128, .f32⟩
  | .hbm, ⟨99, _⟩ => ⟨S32x128, .f32⟩
  | .hbm, ⟨100, _⟩ => ⟨S32x1x128, .f32⟩
  | .hbm, ⟨101, _⟩ => ⟨S1x50000x128, .f32⟩
  | .hbm, ⟨102, _⟩ => ⟨S32x50000x128, .f32⟩
  | .hbm, ⟨103, _⟩ => ⟨S32x50000x128, .f32⟩
  | .hbm, ⟨104, _⟩ => ⟨S32x50000x128, .f32⟩
  | .hbm, ⟨105, _⟩ => ⟨S32x1x128, .f32⟩
  | .hbm, ⟨106, _⟩ => ⟨S1x50000x128, .f32⟩
  | .hbm, ⟨107, _⟩ => ⟨S32x50000x128, .f32⟩
  | .hbm, ⟨108, _⟩ => ⟨S32x50000x128, .f32⟩
  | .hbm, ⟨109, _⟩ => ⟨S32x50000x128, .f32⟩
  | .hbm, ⟨110, _⟩ => ⟨S32x50000x128, .f32⟩
  | .hbm, ⟨111, _⟩ => ⟨S32x50000x128, .f32⟩
  | .hbm, ⟨112, _⟩ => ⟨S32x50000x128, .f32⟩
  | .hbm, ⟨113, _⟩ => ⟨S32x50000x128, .f32⟩
  | .hbm, ⟨114, _⟩ => ⟨S_, .f32⟩
  | .hbm, ⟨115, _⟩ => ⟨S32x50000, .f32⟩
  | .hbm, ⟨116, _⟩ => ⟨S_, .f32⟩
  | .hbm, ⟨117, _⟩ => ⟨S32, .f32⟩
  | .hbm, ⟨118, _⟩ => ⟨S32x1, .f32⟩
  | .hbm, ⟨119, _⟩ => ⟨S_, .f32⟩
  | .hbm, ⟨120, _⟩ => ⟨S50000, .f32⟩
  | .hbm, ⟨121, _⟩ => ⟨S1x50000, .f32⟩
  | .hbm, ⟨122, _⟩ => ⟨S32x50000, .f32⟩
  | .hbm, ⟨123, _⟩ => ⟨S32x50000, .f32⟩
  | .hbm, ⟨124, _⟩ => ⟨S32x50000, .f32⟩
  | .hbm, ⟨125, _⟩ => ⟨S32x50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_v21 : Ref sig .tc := ⟨.hbm, 56, rfl⟩
abbrev main_c_3 : Ref sig .tc := ⟨.hbm, 57, rfl⟩
abbrev main_v22 : Ref sig .tc := ⟨.hbm, 58, rfl⟩
abbrev main_v23 : Ref sig .tc := ⟨.hbm, 59, rfl⟩
abbrev main_c_4 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst : Ref sig .tc := ⟨.hbm, 114, rfl⟩
abbrev main_v62 : Ref sig .tc := ⟨.hbm, 115, rfl⟩
abbrev main_cst_7 : Ref sig .tc := ⟨.hbm, 116, rfl⟩
abbrev main_v63 : Ref sig .tc := ⟨.hbm, 117, rfl⟩
abbrev main_v64 : Ref sig .tc := ⟨.hbm, 118, rfl⟩
abbrev main_cst_8 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩

abbrev nD : Nat := 1
abbrev τ : Topo := Topo.v7x

variable {F : FTy → Type} [FloatOps F]

class Facts₀ : Prop where
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  slices_S32x3_S32x1_0_0 : S32x3.Slices ![0, 0] S32x1
  shapeCasts_S32x1_S32 : S32x1.ShapeCasts S32
  slices_S32x3_S32x1_0_1 : S32x3.Slices ![0, 1] S32x1
  bcast_S_S32 : S_.BroadcastsInDim S32 (![] : Fin 0 → Fin S32.rank)
  bcast_S32_S32x1_0 : S32.BroadcastsInDim S32x1 (![0] : Fin 1 → Fin S32x1.rank)
  bcast_S_S32x128 : S_.BroadcastsInDim S32x128 (![] : Fin 0 → Fin S32x128.rank)
  slices_S32x256_S32x128_0_0 : S32x256.Slices ![0, 0] S32x128
  slices_S32x256_S32x128_0_128 : S32x256.Slices ![0, 128] S32x128
  bcast_S32x128_S32x1x128_0_2 : S32x128.BroadcastsInDim S32x1x128 (![0, 2] : Fin 2 → Fin S32x1x128.rank)
  bcast_S50000x128_S1x50000x128_1_2 : S50000x128.BroadcastsInDim S1x50000x128 (![1, 2] : Fin 2 → Fin S1x50000x128.rank)
  bcast_S32x1x128_S32x50000x128_0_1_2 : S32x1x128.BroadcastsInDim S32x50000x128 (![0, 1, 2] : Fin 3 → Fin S32x50000x128.rank)
  bcast_S1x50000x128_S32x50000x128_0_1_2 : S1x50000x128.BroadcastsInDim S32x50000x128 (![0, 1, 2] : Fin 3 → Fin S32x50000x128.rank)
  reducesTo_S32x50000x128_S32x50000_d2 : S32x50000x128.ReducesTo [2] S32x50000
  h_S_ : 0 < S_.numel
  reducesTo_S32x128_S32_d1 : S32x128.ReducesTo [1] S32
  reducesTo_S50000x128_S50000_d1 : S50000x128.ReducesTo [1] S50000
  bcast_S50000_S1x50000_1 : S50000.BroadcastsInDim S1x50000 (![1] : Fin 1 → Fin S1x50000.rank)
  bcast_S32x1_S32x50000_0_1 : S32x1.BroadcastsInDim S32x50000 (![0, 1] : Fin 2 → Fin S32x50000.rank)
  bcast_S1x50000_S32x50000_0_1 : S1x50000.BroadcastsInDim S32x50000 (![0, 1] : Fin 2 → Fin S32x50000.rank)
  gather_S50000x256_S32x1_S32x256_1_0_n_n_0_1_1256_wf : GatherDims.WF S50000x256 S32x1 S32x256 [1] [0] [] [0] [] 1 ![1, 256]
  gather_S50000x128_S32x1_S32x128_1_0_n_n_0_1_1128_wf : GatherDims.WF S50000x128 S32x1 S32x128 [1] [0] [] [0] [] 1 ![1, 128]
  gather_S500x128_S32x1_S32x128_1_0_n_n_0_1_1128_wf : GatherDims.WF S500x128 S32x1 S32x128 [1] [0] [] [0] [] 1 ![1, 128]

variable [Facts₀]

def gather_S50000x256_S32x1_S32x256_1_0_n_n_0_1_1256 : GatherDims S50000x256 S32x1 S32x256 where
  offsetDims := [1]
  collapsedSliceDims := [0]
  operandBatchingDims := []
  startIndicesBatchingDims := []
  startIndexMap := [0]
  indexVectorDim := 1
  sliceSizes := ![1, 256]
  wf := gather_S50000x256_S32x1_S32x256_1_0_n_n_0_1_1256_wf
def gather_S50000x128_S32x1_S32x128_1_0_n_n_0_1_1128 : GatherDims S50000x128 S32x1 S32x128 where
  offsetDims := [1]
  collapsedSliceDims := [0]
  operandBatchingDims := []
  startIndicesBatchingDims := []
  startIndexMap := [0]
  indexVectorDim := 1
  sliceSizes := ![1, 128]
  wf := gather_S50000x128_S32x1_S32x128_1_0_n_n_0_1_1128_wf
def gather_S500x128_S32x1_S32x128_1_0_n_n_0_1_1128 : GatherDims S500x128 S32x1 S32x128 where
  offsetDims := [1]
  collapsedSliceDims := [0]
  operandBatchingDims := []
  startIndicesBatchingDims := []
  startIndexMap := [0]
  indexVectorDim := 1
  sliceSizes := ![1, 128]
  wf := gather_S500x128_S32x1_S32x128_1_0_n_n_0_1_1128_wf

class Facts : Prop extends Facts₀ where

variable [Facts]
-- ==== Proof.Score.lean ====
/-
  The score both programs compute, as mathematics on the extended reals.
  For a batch row b with predicted point (P[b,k], Q[b,k]) in each of 128 complex lanes and summed radius R[b], and an
  entity row n with centre (A0[n,k], A0[n,128+k]) and raw radius A1[n,k]:
      score b n = (R[b] + Σ_k softplus A1[n,k]) - Σ_k sqrt ((P[b,k] - A0[n,k])² + (Q[b,k] - A0[n,128+k])²).
  softplus x = max x 0 + log (1 + e^(-|x|)), with |x| = max x (-x).  Each program spells softplus with a guard
  "x ≠ x" (never true on a linear order), a zero subtracted from x, and the negation either as 0 - |x| or as -|x|;
  those spellings are shown here to be one function.
-/
import Idealize.ShloMosaic.PureOps.Ideal
import Idealize.ShloMosaic.PureOps.Ideal.Laws
import Idealize.ShloMosaic.Lib.ValueIdx

noncomputable section

namespace RotDist

open Idealize.ShloMosaic Idealize.ShloMosaic.ValueIdx

/-- softplus on the extended reals: max x 0 + log (1 + e^(-|x|)). -/
def sp (x : EReal) : EReal := max x 0 + Ideal.log1p (Ideal.exp (-(max x (-x))))

/-- No extended real differs from itself (the ordered "not equal"). -/
theorem cmp_one_self (x : EReal) : Ideal.cmp .one x x = 0#1 := by simp [Ideal.cmp]

/-- No extended real differs from itself (the unordered "not equal"). -/
theorem cmp_une_self (x : EReal) : Ideal.cmp .une x x = 0#1 := by simp [Ideal.cmp]

theorem select_zero' {α : Type} (a b : α) : Scalar.select 0#1 a b = b := if_neg (by decide)

/-- The spelling with the negation written 0 - |x - 0|. -/
theorem sp_of_sub (x z : EReal) (hz : z = 0) :
    Scalar.select (Ideal.cmp .one (x - z) (x - z)) (x + z)
      (max x z + Ideal.log1p (Ideal.exp (z - max (x - z) (-(x - z))))) = sp x := by
  subst hz
  rw [cmp_one_self, select_zero', sub_zero, sub_eq_add_neg, zero_add]
  rfl

/-- The spelling with the negation written -|x - 0|. -/
theorem sp_of_neg (x z : EReal) (hz : z = 0) :
    Scalar.select (Ideal.cmp .une (x - z) (x - z)) (x + z)
      (max x z + Ideal.log1p (Ideal.exp (-(max (x - z) (-(x - z)))))) = sp x := by
  subst hz
  rw [cmp_une_self, select_zero', sub_zero]
  rfl

/-- The column of the left half (real parts) and of the right half (imaginary parts) of a 256-wide row. -/
abbrev lo (k : Fin 128) : Fin 256 := ⟨k.val, by have := k.isLt; omega⟩
abbrev hi (k : Fin 128) : Fin 256 := ⟨128 + k.val, by have := k.isLt; omega⟩

/-- One lane's complex modulus: the distance between the predicted point (p, q) and the entity's centre (u, v). -/
def modulus (p q u v : EReal) : EReal := Ideal.sqrt ((p - u) * (p - u) + (q - v) * (q - v))

/-- The score of batch row b against row n of entity tables of N rows: A0 the centres, A1 the raw radii, P and Q the
    batch's predicted real and imaginary parts, R its summed radii. -/
def score (N : Nat) (A0 : (⟨2, ![N, 256]⟩ : Shape).Idx → EReal) (A1 : (⟨2, ![N, 128]⟩ : Shape).Idx → EReal)
    (P Q : (⟨2, ![32, 128]⟩ : Shape).Idx → EReal) (R : (⟨2, ![32, 1]⟩ : Shape).Idx → EReal) (b : Fin 32) (n : Fin N) : EReal :=
  (R (ix2 b (0 : Fin 1)) + ∑ k : Fin 128, sp (A1 (ix2 n k)))
    - ∑ k : Fin 128, modulus (P (ix2 b k)) (Q (ix2 b k)) (A0 (ix2 n (lo k))) (A0 (ix2 n (hi k)))

end RotDist

end
-- ==== Proof.TileValue.lean ====
/-
  What one grid point's body stores, read at an index.  The body holds a tile of 256 entity rows: the tile's
  centre block x0 [256,256] (real parts in columns 0..127, imaginary parts in columns 128..255), its radius
  block x1 [256,128], and the batch's predicted real parts x2, imaginary parts x3 [32,128] and summed radii
  x4 [32,1].  At (b, r) it stores
      (x4[b] + Σ_k softplus x1[r,k]) - Σ_k sqrt ((x2[b,k] - x0[r,k])² + (x3[b,k] - x0[r,128+k])²).
  Each factor of the stored value (the row sums of softplus, the lane sums of the moduli, the broadcast bias)
  is read through its layout operations one at a time.
-/
import proofs.«154868_j42064909697223_1_alg».proof.Proof.Gen.KernelIdeal.Frame
import proofs.«154868_j42064909697223_1_alg».proof.Proof.Score
import Idealize.ShloMosaic.Lib.Pipeline.Value
import Idealize.ShloMosaic.Lib.ValueIdx
import Idealize.ShloMosaic.PureOps.Ideal.Laws

noncomputable section

namespace Cert.KernelIdeal.Dist

open Idealize.ShloMosaic Idealize.ShloMosaic.TcCoe Idealize.SL.Sem Idealize.ShloMosaic.ValueIdx
open Cert.KernelIdeal Cert.KernelIdeal.Gen RotDist

/-- The index a row's k-th summand sits at. -/
theorem lift_row (h : S256x128.Reduces [1] S256) (r : Fin 256) (k : Fin 128) : h.lift (ix1 r) k = ix2 r k := by
  funext a
  match a with
  | ⟨0, _⟩ => rfl
  | ⟨1, _⟩ => rfl

/-- A lane sum of a [256,128] block at row r is the sum over its 128 columns. -/
theorem lanesum_row (v : FVec Ideal S256x128 .f32) (hφ : FKind.Formats .f32) (hacc : (0x00000000#32 : BitVec 32) = 0x00000000#32) (r : Fin 256) :
    multiReduction .add [1] S256 v 0x00000000#32 reduces_S256x128_S256 hφ hacc (ix1 r) = ∑ k : Fin 128, v (ix2 r k) := by
  refine (Ideal.multiReduction_add_single v _ _ _ _ (ix1 r)).trans ?_
  show (∑ k : Fin 128, v (reduces_S256x128_S256.lift (ix1 r) k)) = _
  exact Finset.sum_congr rfl fun k _ => congrArg v (lift_row _ r k)

/-- The transposed row sums: at column r, the sum over the row's 128 entries of softplus. -/
theorem rowsum_apply (x1 : Vec Ideal S256x128 .f32) (r : Fin 256) :
    k0_pay2 (F := Ideal) x1 (ix2 (0 : Fin 1) r) = ∑ k : Fin 128, sp (x1 (ix2 r k)) := by
  unfold k0_pay2
  simp only [shapeCast_self]
  refine (transpose_apply _ _ _ (ix2 (0 : Fin 1) r) (ix2 r (0 : Fin 1)) (fun b => match b with
    | ⟨0, _⟩ => rfl
    | ⟨1, _⟩ => rfl)).trans ?_
  refine (shapeCast_apply _ _ (ix2 r (0 : Fin 1)) (ix1 r) ?_).trans ?_
  · rw [Shape.rowMajor_val_one, Shape.rowMajor_val_two]
    show r.val = r.val * 1 + 0
    omega
  refine (lanesum_row _ _ _ r).trans ?_
  refine Finset.sum_congr rfl fun k _ => ?_
  exact sp_of_sub _ _ Ideal.ofBits_zero_f32

/-- The index a lane sum's k-th summand sits at. -/
theorem lift_lane (h : S32x256x128.Reduces [2] S32x256) (b : Fin 32) (r : Fin 256) (k : Fin 128) :
    h.lift (ix2 b r) k = ix3 b r k := by
  funext a
  match a with
  | ⟨0, _⟩ => rfl
  | ⟨1, _⟩ => rfl
  | ⟨2, _⟩ => rfl

/-- A lane sum of a [32,256,128] value at (b, r) is the sum over its 128 lanes. -/
theorem lanesum_cube (v : FVec Ideal S32x256x128 .f32) (hφ : FKind.Formats .f32) (hacc : (0x00000000#32 : BitVec 32) = 0x00000000#32)
    (b : Fin 32) (r : Fin 256) :
    multiReduction .add [2] S32x256 v 0x00000000#32 reduces_S32x256x128_S32x256 hφ hacc (ix2 b r) = ∑ k : Fin 128, v (ix3 b r k) := by
  refine (Ideal.multiReduction_add_single v _ _ _ _ (ix2 b r)).trans ?_
  show (∑ k : Fin 128, v (reduces_S32x256x128_S32x256.lift (ix2 b r) k)) = _
  exact Finset.sum_congr rfl fun k _ => congrArg v (lift_lane _ b r k)

/-- A [32,128] value spread over the 256 rows of a tile reads its own (b, k). -/
theorem spread_batch (p : FVec Ideal S32x128 .f32) (b : Fin 32) (r : Fin 256) (k : Fin 128) :
    broadcastTo S32x256x128 (shapeCast S32x1x128 p shapeCasts_S32x128_S32x1x128) broadcasts_S32x1x128_S32x256x128 (ix3 b r k)
      = p (ix2 b k) := by
  refine (broadcastTo_apply _ _ (ix3 b r k) (ix3 b (0 : Fin 1) k) (fun a => match a with
    | ⟨0, _⟩ => rfl
    | ⟨1, _⟩ => rfl
    | ⟨2, _⟩ => rfl)).trans ?_
  refine shapeCast_apply _ _ (ix3 b (0 : Fin 1) k) (ix2 b k) ?_
  rw [Shape.rowMajor_val_two, Shape.rowMajor_val_three]
  show b.val * 128 + k.val = (b.val * 1 + 0) * 128 + k.val
  omega

/-- A [256,128] value spread over the 32 batch rows reads its own (r, k). -/
theorem spread_tile (u : FVec Ideal S256x128 .f32) (b : Fin 32) (r : Fin 256) (k : Fin 128) :
    broadcastTo S32x256x128 (shapeCast S1x256x128 u shapeCasts_S256x128_S1x256x128) broadcasts_S1x256x128_S32x256x128 (ix3 b r k)
      = u (ix2 r k) := by
  refine (broadcastTo_apply _ _ (ix3 b r k) (ix3 (0 : Fin 1) r k) (fun a => match a with
    | ⟨0, _⟩ => rfl
    | ⟨1, _⟩ => rfl
    | ⟨2, _⟩ => rfl)).trans ?_
  refine shapeCast_apply _ _ (ix3 (0 : Fin 1) r k) (ix2 r k) ?_
  rw [Shape.rowMajor_val_two, Shape.rowMajor_val_three]
  show r.val * 128 + k.val = (0 * 256 + r.val) * 128 + k.val
  omega

/-- The left half of a 256-wide row. -/
theorem half_lo (x0 : FVec Ideal S256x256 .f32) (r : Fin 256) (k : Fin 128) :
    extractStridedSlice S256x128 ![0, 0] x0 slices_S256x256_o0_0_S256x128 (ix2 r k) = x0 (ix2 r (lo k)) :=
  extractStridedSlice_apply _ _ _ (ix2 r k) (ix2 r (lo k)) (fun a => match a with
    | ⟨0, _⟩ => by show r.val = 0 + r.val; omega
    | ⟨1, _⟩ => by show k.val = 0 + k.val; omega)

/-- The right half of a 256-wide row. -/
theorem half_hi (x0 : FVec Ideal S256x256 .f32) (r : Fin 256) (k : Fin 128) :
    extractStridedSlice S256x128 ![0, 128] x0 slices_S256x256_o0_128_S256x128 (ix2 r k) = x0 (ix2 r (hi k)) :=
  extractStridedSlice_apply _ _ _ (ix2 r k) (ix2 r (hi k)) (fun a => match a with
    | ⟨0, _⟩ => by show r.val = 0 + r.val; omega
    | ⟨1, _⟩ => by show 128 + k.val = 128 + k.val; omega)

/-- The distance term at (b, r): the sum over the 128 lanes of the complex moduli. -/
theorem dist_apply (x0 : Vec Ideal S256x256 .f32) (x2 x3 : Vec Ideal S32x128 .f32) (b : Fin 32) (r : Fin 256) :
    k0_pay3 (F := Ideal) x0 x2 x3 (ix2 b r)
      = ∑ k : Fin 128, modulus (x2 (ix2 b k)) (x3 (ix2 b k)) (x0 (ix2 r (lo k))) (x0 (ix2 r (hi k))) := by
  unfold k0_pay3
  simp only [shapeCast_self]
  refine (lanesum_cube _ _ _ b r).trans ?_
  refine Finset.sum_congr rfl fun k _ => ?_
  have eP := spread_batch x2 b r k
  have eQ := spread_batch x3 b r k
  have eU := (spread_tile (extractStridedSlice S256x128 ![0, 0] x0 slices_S256x256_o0_0_S256x128) b r k).trans (half_lo x0 r k)
  have eV := (spread_tile (extractStridedSlice S256x128 ![0, 128] x0 slices_S256x256_o0_128_S256x128) b r k).trans (half_hi x0 r k)
  show Ideal.sqrt ((_ - _) * (_ - _) + (_ - _) * (_ - _)) = _
  rw [eP, eQ, eU, eV]
  rfl

/-- The batch's summed radii, broadcast along the tile's rows. -/
theorem bias_apply (x4 : Vec Ideal S32x1 .f32) (b : Fin 32) (r : Fin 256) :
    k0_pay4 (F := Ideal) x4 (ix2 b r) = x4 (ix2 b (0 : Fin 1)) := by
  unfold k0_pay4
  simp only [shapeCast_self]
  exact broadcastTo_apply _ _ (ix2 b r) (ix2 b (0 : Fin 1)) (fun a => match a with
    | ⟨0, _⟩ => rfl
    | ⟨1, _⟩ => rfl)

/-- The stored value: bias plus the tile's row sums, less the distance term. -/
theorem out_apply (v22 : FVec Ideal S1x256 .f32) (v43 v44 : FVec Ideal S32x256 .f32) (b : Fin 32) (r : Fin 256) :
    k0_pay1 (F := Ideal) v22 v43 v44 (ix2 b r) = (v44 (ix2 b r) + v22 (ix2 (0 : Fin 1) r)) - v43 (ix2 b r) := by
  unfold k0_pay1
  have e : broadcastTo S32x256 v22 broadcasts_S1x256_S32x256 (ix2 b r) = v22 (ix2 (0 : Fin 1) r) :=
    broadcastTo_apply _ _ (ix2 b r) (ix2 (0 : Fin 1) r) (fun a => match a with
      | ⟨0, _⟩ => rfl
      | ⟨1, _⟩ => rfl)
  show (_ + _) - _ = _
  rw [e]

end Cert.KernelIdeal.Dist

end
-- ==== Proof.TileArray.lean ====
/-
  From tiles to the array.  The grid has 196 points; point t holds rows 256 t .. 256 t + 255 of the two padded
  entity tables (centres [50176,256], radii [50176,128]) and the whole of the three batch operands, and writes
  back columns 256 t .. 256 t + 255 of the padded [32, 50176] score array.  So each point writes tile t of ONE
  function of the arrays the region finds, the 196 tiles cover the padded array, and it ends holding that
  function: the score of batch row b against padded entity row n at (b, n).
-/
import proofs.«154868_j42064909697223_1_alg».proof.Proof.Gen.KernelIdeal.Frame
import proofs.«154868_j42064909697223_1_alg».proof.Proof.TileValue
import Idealize.ShloMosaic.Lib.Pipeline.Value
import Idealize.ShloMosaic.Lib.ValueIdx
import Idealize.ShloMosaic.PureOps.Ideal.Laws

set_option maxRecDepth 16384

noncomputable section

namespace Cert.KernelIdeal.Dist

open Idealize.ShloMosaic Idealize.ShloMosaic.TcCoe Idealize.SL.Sem Idealize.ShloMosaic.ValueIdx
open Idealize.ShloMosaic.Pipeline (Dat)
open Cert.KernelIdeal Cert.KernelIdeal.Gen RotDist

variable (m : (ℓ : Loc nD τ sig) → Buf (Elt Ideal) ℓ)

/-- The stores' offsets are zero. -/
theorem hz : (![0, 0] : Fin 2 → Nat) = fun _ => 0 := funext fun a => by fin_cases a <;> rfl

/-- All the scores, as the padded [32, 50176] array. -/
def scores (A0 : FVec Ideal S50176x256 .f32) (A1 : FVec Ideal S50176x128 .f32) (P Q : FVec Ideal S32x128 .f32)
    (R : FVec Ideal S32x1 .f32) : FVec Ideal S32x50176 .f32 :=
  fun i => score 50176 A0 A1 P Q R ⟨(i 0).val, idx2_lt0 i⟩ ⟨(i 1).val, idx2_lt1 i⟩

/-- The grid has 196 points. -/
theorem lt_N (t : Fin cfg0.N) : t.val < 196 := by
  have h : t.val < grid0.N := t.isLt
  have hN : grid0.N = 196 := N_0
  omega

/-- Row r of tile t is row 256 t + r of the padded tables. -/
abbrev rowOf (t : Fin cfg0.N) (r : Fin 256) : Fin 50176 :=
  ⟨t.val * 256 + r.val, by have := lt_N t; have := r.isLt; omega⟩

/-- The printed index maps, decided over the 196 grid points: the two entity tables and the output move with the point
    along the entity axis, the three batch operands stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Tile t of the padded centre table: its row r is the table's row 256 t + r. -/
theorem blk0_apply (c : Dev nD) (t : Fin cfg0.N) (r q : Fin 256) :
    (iblk m c 0 t : Vec Ideal S256x256 .f32) (ix2 r q) = (V m c main_v47 : S50176x256.Idx → EReal) (ix2 (rowOf t r) q) := by
  obtain ⟨e00, e01, -⟩ := idx_facts t
  unfold iblk
  rw [View.read_apply]
  show V m c main_v47 _ = V m c main_v47 _
  congr 1
  funext a
  apply Fin.ext
  match a with
  | ⟨0, _⟩ => show win0_0.index t (0 : Fin 2) * 256 + 1 * r.val = t.val * 256 + r.val; rw [e00]; omega
  | ⟨1, _⟩ => show win0_0.index t (1 : Fin 2) * 256 + 1 * q.val = q.val; rw [e01]; omega

/-- Tile t of the padded radius table: its row r is the table's row 256 t + r. -/
theorem blk1_apply (c : Dev nD) (t : Fin cfg0.N) (r : Fin 256) (k : Fin 128) :
    (iblk m c 1 t : Vec Ideal S256x128 .f32) (ix2 r k) = (V m c main_v48 : S50176x128.Idx → EReal) (ix2 (rowOf t r) k) := by
  obtain ⟨-, -, e10, e11, -⟩ := idx_facts t
  unfold iblk
  rw [View.read_apply]
  show V m c main_v48 _ = V m c main_v48 _
  congr 1
  funext a
  apply Fin.ext
  match a with
  | ⟨0, _⟩ => show win0_1.index t (0 : Fin 2) * 256 + 1 * r.val = t.val * 256 + r.val; rw [e10]; omega
  | ⟨1, _⟩ => show win0_1.index t (1 : Fin 2) * 128 + 1 * k.val = k.val; rw [e11]; omega

/-- Every point holds the whole of the predicted real parts. -/
theorem blk2_apply (c : Dev nD) (t : Fin cfg0.N) (b : Fin 32) (k : Fin 128) :
    (iblk m c 2 t : Vec Ideal S32x128 .f32) (ix2 b k) = (V m c main_v40 : S32x128.Idx → EReal) (ix2 b k) := by
  obtain ⟨-, -, -, -, e20, e21, -⟩ := idx_facts t
  unfold iblk
  rw [View.read_apply]
  show V m c main_v40 _ = V m c main_v40 _
  congr 1
  funext a
  apply Fin.ext
  match a with
  | ⟨0, _⟩ => show win0_2.index t (0 : Fin 2) * 32 + 1 * b.val = b.val; rw [e20]; omega
  | ⟨1, _⟩ => show win0_2.index t (1 : Fin 2) * 128 + 1 * k.val = k.val; rw [e21]; omega

/-- Every point holds the whole of the predicted imaginary parts. -/
theorem blk3_apply (c : Dev nD) (t : Fin cfg0.N) (b : Fin 32) (k : Fin 128) :
    (iblk m c 3 t : Vec Ideal S32x128 .f32) (ix2 b k) = (V m c main_v43 : S32x128.Idx → EReal) (ix2 b k) := by
  obtain ⟨-, -, -, -, -, -, e30, e31, -⟩ := idx_facts t
  unfold iblk
  rw [View.read_apply]
  show V m c main_v43 _ = V m c main_v43 _
  congr 1
  funext a
  apply Fin.ext
  match a with
  | ⟨0, _⟩ => show win0_3.index t (0 : Fin 2) * 32 + 1 * b.val = b.val; rw [e30]; omega
  | ⟨1, _⟩ => show win0_3.index t (1 : Fin 2) * 128 + 1 * k.val = k.val; rw [e31]; omega

/-- Every point holds the whole of the batch's summed radii. -/
theorem blk4_apply (c : Dev nD) (t : Fin cfg0.N) (b : Fin 32) :
    (iblk m c 4 t : Vec Ideal S32x1 .f32) (ix2 b (0 : Fin 1)) = (V m c main_v46 : S32x1.Idx → EReal) (ix2 b (0 : Fin 1)) := by
  obtain ⟨-, -, -, -, -, -, -, -, e40, e41, -⟩ := idx_facts t
  unfold iblk
  rw [View.read_apply]
  show V m c main_v46 _ = V m c main_v46 _
  congr 1
  funext a
  apply Fin.ext
  match a with
  | ⟨0, _⟩ => show win0_4.index t (0 : Fin 2) * 32 + 1 * b.val = b.val; rw [e40]; omega
  | ⟨1, _⟩ => show win0_4.index t (1 : Fin 2) * 1 + 1 * 0 = 0; rw [e41]

/-- Where tile t's entry (b, r) sits in the padded score array. -/
theorem emb5 (t : Fin cfg0.N) (b : Fin 32) (r : Fin 256) :
    ((cfg0.win 5).blk t).view.emb (ix2 b r) = (ix2 b (rowOf t r) : S32x50176.Idx) := by
  obtain ⟨-, -, -, -, -, -, -, -, -, -, e50, e51⟩ := idx_facts t
  funext a
  apply Fin.ext
  match a with
  | ⟨0, _⟩ => show win0_5.index t (0 : Fin 2) * 32 + 1 * b.val = b.val; rw [e50]; omega
  | ⟨1, _⟩ => show win0_5.index t (1 : Fin 2) * 256 + 1 * r.val = t.val * 256 + r.val; rw [e51]; omega

/-- The body's stored value at (b, r) of tile t is the score of batch row b against padded entity row 256 t + r. -/
theorem tile_apply (c : Dev nD) (t : Fin cfg0.N) (b : Fin 32) (r : Fin 256) :
    k0_pay1 (F := Ideal) (k0_pay2 (iblk m c 1 t)) (k0_pay3 (iblk m c 0 t) (iblk m c 2 t) (iblk m c 3 t)) (k0_pay4 (iblk m c 4 t)) (ix2 b r)
      = score 50176 (V m c main_v47) (V m c main_v48) (V m c main_v40) (V m c main_v43) (V m c main_v46) b (rowOf t r) := by
  refine (out_apply _ _ _ b r).trans ?_
  have e1 := rowsum_apply (iblk m c 1 t) r
  have e2 := dist_apply (iblk m c 0 t) (iblk m c 2 t) (iblk m c 3 t) b r
  have e3 := bias_apply (iblk m c 4 t) b r
  rw [e1, e2, e3]
  unfold score
  rw [blk4_apply m c t b]
  simp only [blk1_apply m c t r, blk0_apply m c t r, blk2_apply m c t b, blk3_apply m c t b]

/-- The same at any index of the tile, with the padded array read where the tile's entry sits. -/
theorem tile_apply_emb (c : Dev nD) (t : Fin cfg0.N) (j : S32x256.Idx) :
    k0_pay1 (F := Ideal) (k0_pay2 (iblk m c 1 t)) (k0_pay3 (iblk m c 0 t) (iblk m c 2 t) (iblk m c 3 t)) (k0_pay4 (iblk m c 4 t)) j
      = scores (V m c main_v47) (V m c main_v48) (V m c main_v40) (V m c main_v43) (V m c main_v46)
          (((cfg0.win 5).blk t).view.emb j) := by
  obtain ⟨b, r, rfl⟩ : ∃ (b : Fin 32) (r : Fin 256), j = ix2 b r := ⟨j 0, j 1, eq_ix2 j⟩
  rw [emb5 t b r]
  exact tile_apply m c t b r

/-- WHAT POINT t WRITES BACK is tile t of the padded score array. -/
theorem flushed_eq (c : Dev nD) (t : Fin cfg0.N) :
    (dats m 0 c).flushed 5 t = ((cfg0.win 5).blk t).view.read (Elt Ideal)
      (scores (V m c main_v47) (V m c main_v48) (V m c main_v40) (V m c main_v43) (V m c main_v46)) := by
  show (cfg0.win 5).cut (grid0.coords t) ((dats m 0 c).after 5 t) = _
  rw [after0_5]
  unfold out0_5
  rw [View.canon_unit_zero hz]
  simp only [View.ld_unit_zero (S := S256x256) hz, View.ld_unit_zero (S := S256x128) hz, View.ld_unit_zero (S := S32x128) hz,
    View.ld_unit_zero (S := S32x1) hz]
  funext j
  exact tile_apply_emb m c t j

/-- An index of the padded score array is in point t's tile iff each coordinate is in the tile's range on its axis. -/
theorem mem_blk5 (t : Fin cfg0.N) (i : S32x50176.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v49).slice (win0_5.rect t)).set ↔ _
  rw [View.set_slice_whole, Rect.mem_set_unit]
  exact Iff.rfl

/-- The 196 tiles cover the padded score array: entity row n lies in tile n / 256. -/
theorem cover5 (i : S32x50176.Idx) : ∃ t : Fin cfg0.N, (cfg0.win 5).flush t = true ∧ i ∈ ((cfg0.win 5).blk t).view.set := by
  have hi0 : (i 0).val < 32 := (i 0).isLt
  have hi1 : (i 1).val < 50176 := (i 1).isLt
  have hN : grid0.N = 196 := N_0
  let t : Fin cfg0.N := ⟨(i 1).val / 256, by show (i 1).val / 256 < grid0.N; omega⟩
  obtain ⟨-, -, -, -, -, -, -, -, -, -, e50, e51⟩ := idx_facts t
  have ht : t.val = (i 1).val / 256 := rfl
  refine ⟨t, flush0_5 t, ?_⟩
  rw [mem_blk5]
  intro a
  match a with
  | ⟨0, _⟩ => show win0_5.index t (0 : Fin 2) * 32 ≤ (i 0).val ∧ (i 0).val < win0_5.index t (0 : Fin 2) * 32 + 32; rw [e50]; omega
  | ⟨1, _⟩ => show win0_5.index t (1 : Fin 2) * 256 ≤ (i 1).val ∧ (i 1).val < win0_5.index t (1 : Fin 2) * 256 + 256; rw [e51, ht]; omega

/-- THE ARRAY after the run: the padded score array, of the tables and the batch operands as the region finds them. -/
theorem final5 (c : Dev nD) : (dats m 0 c).arrAt 5 cfg0.N
    = scores (V m c main_v47) (V m c main_v48) (V m c main_v40) (V m c main_v43) (V m c main_v46) :=
  (dats m 0 c).arrAt_eq_of_cover 5 _ (fun t _ => flushed_eq m c t) cover5

end Cert.KernelIdeal.Dist

end
-- ==== Proof.Around.lean ====
/-
  Around the region.  Before it the host pads the two entity tables from 50000 to 50176 rows with zeros and
  computes the batch's predicted real parts, imaginary parts and summed radii; after it the host keeps the first
  50000 columns of the padded [32, 50176] score array.  A padded table read below row 50000 is the table, so
  the kept columns hold the scores against the 50000 entity rows of the argument tables themselves; the padding
  rows only ever reach columns the slice drops.
-/
import proofs.«154868_j42064909697223_1_alg».proof.Proof.Gen.KernelIdeal.Frame
import proofs.«154868_j42064909697223_1_alg».proof.Proof.TileArray
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

set_option maxRecDepth 16384

noncomputable section

namespace Cert.KernelIdeal.Dist

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen RotDist

variable (m : (ℓ : Loc nD τ sig) → Buf (Elt Ideal) ℓ) (ρ : Dev nD → PrngReg)

set_option maxHeartbeats 4000000 in
/-- The centre table the region finds: the argument padded with 176 rows of the converted integer zero. -/
theorem centres_eq (c : Dev nD) : (V m c main_v47 : S50176x256.Idx → EReal)
    = pad S50176x256 ![0, 0] ![176, 0] ![0, 0] (m ((c : Thread nD τ).loc main_arg0) : S50000x256.Idx → EReal)
        (sitofp (F := Ideal) .f32 (constantI S_ 32 0#32)) pads_S50000x256_S50176x256_01760_000 h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results_simp
  rfl

/-- The one line after the region: the slice of the padded score array to its first 50000 columns. -/
theorem tail_eq (c : Dev nD) : Pipeline.afterTail₀ cfgs (dats m) 0 (V0 m) [hostOps1] c main_v50
    = extractStridedSlice S32x50000 ![0, 0] ((dats m 0 c).arrAt 5 cfg0.N) slices_S32x50176_S32x50000_0_0 := by
  unfold Pipeline.afterTail₀
  show StableHlo.after hostOps1 _ (Proc.devRef .tc main_v50) = _
  after_results
  exact congrArg (fun X => extractStridedSlice S32x50000 ![0, 0] X slices_S32x50176_S32x50000_0_0)
    (Pipeline.withArrays_arr spec0 launch0.win.arr_inj c _ _ (5 : Fin 6))

set_option maxHeartbeats 4000000 in
/-- The radius table the region finds: the argument padded likewise. -/
theorem radii_eq (c : Dev nD) : (V m c main_v48 : S50176x128.Idx → EReal)
    = pad S50176x128 ![0, 0] ![176, 0] ![0, 0] (m ((c : Thread nD τ).loc main_arg1) : S50000x128.Idx → EReal)
        (sitofp (F := Ideal) .f32 (constantI S_ 32 0#32)) pads_S50000x128_S50176x128_01760_000 h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results_simp
  rfl

/-- An entity row as a row of the padded tables. -/
abbrev padRow (n : Fin 50000) : Fin 50176 := ⟨n.val, by have := n.isLt; omega⟩

/-- Below row 50000 the padded centre table is the centre table. -/
theorem centres_apply (c : Dev nD) (n : Fin 50000) (q : Fin 256) :
    (V m c main_v47 : S50176x256.Idx → EReal) (ix2 (padRow n) q)
      = (m ((c : Thread nD τ).loc main_arg0) : S50000x256.Idx → EReal) (ix2 n q) := by
  rw [centres_eq]
  exact pad_apply_of_inside _ _ _ _ _ _ _ (ix2 (padRow n) q) (ix2 n q) (fun a => match a with
    | ⟨0, _⟩ => by show n.val = 0 + n.val * (0 + 1); omega
    | ⟨1, _⟩ => by show q.val = 0 + q.val * (0 + 1); omega)

/-- Below row 50000 the padded radius table is the radius table. -/
theorem radii_apply (c : Dev nD) (n : Fin 50000) (k : Fin 128) :
    (V m c main_v48 : S50176x128.Idx → EReal) (ix2 (padRow n) k)
      = (m ((c : Thread nD τ).loc main_arg1) : S50000x128.Idx → EReal) (ix2 n k) := by
  rw [radii_eq]
  exact pad_apply_of_inside _ _ _ _ _ _ _ (ix2 (padRow n) k) (ix2 n k) (fun a => match a with
    | ⟨0, _⟩ => by show n.val = 0 + n.val * (0 + 1); omega
    | ⟨1, _⟩ => by show k.val = 0 + k.val * (0 + 1); omega)

/-- Against an entity row below 50000 the score from the padded tables is the score from the tables themselves. -/
theorem score_pad (c : Dev nD) (P Q : (⟨2, ![32, 128]⟩ : Shape).Idx → EReal) (R : (⟨2, ![32, 1]⟩ : Shape).Idx → EReal)
    (b : Fin 32) (n : Fin 50000) :
    score 50176 (V m c main_v47) (V m c main_v48) P Q R b (padRow n)
      = score 50000 (m ((c : Thread nD τ).loc main_arg0)) (m ((c : Thread nD τ).loc main_arg1)) P Q R b n := by
  unfold score
  simp only [centres_apply m c n, radii_apply m c n]

/-- The kernel's result: the scores of the 32 batch rows against the 50000 entity rows, from the argument tables and
    from the batch quantities as the region finds them. -/
def kernelResult (c : Dev nD) : S32x50000.Idx → EReal := fun i =>
  score 50000 (m ((c : Thread nD τ).loc main_arg0)) (m ((c : Thread nD τ).loc main_arg1))
    (V m c main_v40) (V m c main_v43) (V m c main_v46) ⟨(i 0).val, idx2_lt0 i⟩ ⟨(i 1).val, idx2_lt1 i⟩

/-- The slice of the padded score array to its first 50000 columns is the kernel's result. -/
theorem slice_scores (c : Dev nD) :
    extractStridedSlice S32x50000 ![0, 0]
      (scores (V m c main_v47) (V m c main_v48) (V m c main_v40) (V m c main_v43) (V m c main_v46)) slices_S32x50176_S32x50000_0_0
      = kernelResult m c := by
  funext i
  obtain ⟨b, n, rfl⟩ : ∃ (b : Fin 32) (n : Fin 50000), i = ix2 b n := ⟨i 0, i 1, eq_ix2 i⟩
  refine (extractStridedSlice_apply _ _ _ (ix2 b n) (ix2 b (padRow n)) (fun a => match a with
    | ⟨0, _⟩ => by show b.val = 0 + b.val; omega
    | ⟨1, _⟩ => by show n.val = 0 + n.val; omega)).trans ?_
  exact score_pad m c _ _ _ b n

/-- What the lines after the region leave in the result array. -/
theorem result_eq (c : Dev nD) : Pipeline.afterTail₀ cfgs (dats m) 0 (V0 m) [hostOps1] c main_v50 = kernelResult m c := by
  rw [tail_eq, final5]
  exact slice_scores m c

/-- The result array after the run, from the frame run's post. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v50) = kernelResult m c :=
  ((h c).2 main_v50 (Pipeline.mem_restRefs_of main_v50 (by decide) (by decide))).trans (result_eq m c)

/-- The run, read: the result array at the kernel's result, the arguments unchanged. -/
theorem run_scores : θ_run defs (onTc (τ := τ) (main (F := Ideal))) ⟨m, fun _ => 0, ρ⟩ fun r => ∀ c : Dev nD,
      r.2.mem ((c.tc : Thread nD τ).loc main_v50) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨post_result m r h c,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Dist

end
-- ==== Proof.RefScore.lean ====
/-
  The reference's result, read at an index.  The reference splits the centre table into its real and imaginary
  halves, takes softplus of the whole radius table, computes the batch's predicted real parts, imaginary parts
  and radii, and then broadcasts everything to [32, 50000, 128] before it sums over the 128 lanes.  At (b, n)
  the broadcasts read their operands at (b, k) or (n, k), the two sums keep their zero initial value, and what
  is left is the score of batch row b against entity row n.
-/
import proofs.«154868_j42064909697223_1_alg».proof.Proof.Gen.ReferenceIdeal.Read
import proofs.«154868_j42064909697223_1_alg».proof.Proof.Score
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read RotDist

/-- The reference's softplus of the radius table, at an index. -/
theorem softplus_apply (x1 : (⟨S50000x128, .f32⟩ : BufTy).Contents (Elt Ideal)) (i : S50000x128.Idx) :
    val_main_v2 (F := Ideal) x1 i = sp (x1 i) := by
  simp only [val_main_v2_apply, val_main_call0_v4_apply, val_main_call0_v3_apply, val_main_call0_v2_apply,
    val_main_call0_cst_apply, val_main_call0_v6_apply, val_main_call0_v5_apply, val_main_call0_v11_apply,
    val_main_call0_v1_apply, val_main_call0_v0_apply, val_main_call0_v10_apply, val_main_call0_v9_apply,
    val_main_call0_v8_apply, val_main_call0_v7_apply]
  exact sp_of_neg _ _ Ideal.ofBits_zero_f32

/-- The reference's result at (b, n): the score of batch row b against entity row n, from the predicted parts and the
    summed radii it computes on the way. -/
theorem result_apply (x0 : (⟨S50000x256, .f32⟩ : BufTy).Contents (Elt Ideal)) (x1 : (⟨S50000x128, .f32⟩ : BufTy).Contents (Elt Ideal))
    (x2 x3 : (⟨S500x128, .f32⟩ : BufTy).Contents (Elt Ideal)) (x4 : (⟨S32x3, .i32⟩ : BufTy).Contents (Elt Ideal))
    (b : Fin 32) (n : Fin 50000) :
    val_main_v70 (F := Ideal) x0 x1 x2 x3 x4 (ix2 b n)
      = score 50000 x0 x1 (val_main_v43 (F := Ideal) x0 x2 x4) (val_main_v46 (F := Ideal) x0 x2 x4)
          (val_main_v64 (F := Ideal) x1 x3 x4) b n := by
  simp only [val_main_v70_apply, val_main_v69_apply, val_main_v67_apply, val_main_v68_apply, val_main_v66_apply,
    val_main_v65_apply, val_main_v62_apply, val_main_v61_apply, val_main_v60_apply, val_main_v58_apply, val_main_v59_apply,
    val_main_v52_apply, val_main_v57_apply, val_main_v50_apply, val_main_v51_apply, val_main_v55_apply, val_main_v56_apply,
    val_main_v48_apply, val_main_v49_apply, val_main_v53_apply, val_main_v54_apply, val_main_v0_apply, val_main_v1_apply,
    val_main_cst_apply, val_main_cst_8_apply, softplus_apply]
  have i1 : idx_main_v67 (ix2 b n) = ix2 b (0 : Fin 1) := by
    funext a; match a with
    | ⟨0, _⟩ => rfl
    | ⟨1, _⟩ => rfl
  have i2 : ∀ k : Fin 128, idx_main_v65 (idx_main_v66 (idx_main_v68 (ix2 b n))) k = ix2 n k := fun k => by
    funext a; match a with
    | ⟨0, _⟩ => rfl
    | ⟨1, _⟩ => rfl
  have i3 : ∀ k : Fin 128, idx_main_v48 (idx_main_v50 (idx_main_v62 (ix2 b n) k)) = ix2 b k := fun k => by
    funext a; match a with
    | ⟨0, _⟩ => rfl
    | ⟨1, _⟩ => rfl
  have i4 : ∀ k : Fin 128, idx_main_v0 (idx_main_v49 (idx_main_v51 (idx_main_v62 (ix2 b n) k))) = ix2 n (lo k) := fun k => by
    funext a; match a with
    | ⟨0, _⟩ => rfl
    | ⟨1, _⟩ => rfl
  have i5 : ∀ k : Fin 128, idx_main_v53 (idx_main_v55 (idx_main_v62 (ix2 b n) k)) = ix2 b k := fun k => by
    funext a; match a with
    | ⟨0, _⟩ => rfl
    | ⟨1, _⟩ => rfl
  have i6 : ∀ k : Fin 128, idx_main_v1 (idx_main_v54 (idx_main_v56 (idx_main_v62 (ix2 b n) k))) = ix2 n (hi k) := fun k => by
    funext a; match a with
    | ⟨0, _⟩ => rfl
    | ⟨1, _⟩ => rfl
  have hz : (FloatOps.ofBits (F := Ideal) FTy.f32 0#32 : EReal) = 0 := Ideal.ofBits_zero_f32
  simp only [i1, i2, i3, i4, i5, i6]
  show (_ + (FloatOps.ofBits (F := Ideal) FTy.f32 0#32 + _)) - (FloatOps.ofBits (F := Ideal) FTy.f32 0#32 + _) = _
  rw [hz, zero_add, zero_add]
  rfl

end Cert.ReferenceIdeal.RefValue

end
-- ==== Proof.lean ====
/-
  The certificate.  Both programs compute, for every batch row b and entity row n,
      score b n = (R[b] + Σ_k softplus ρ[n,k]) - Σ_k sqrt ((P[b,k] - c[n,k])² + (Q[b,k] - c[n,128+k])²),
  where c is the centre table, ρ the raw radius table, and P, Q, R the batch's rotated head centre (real and
  imaginary parts) and summed radii, which both programs compute on the host by the same operations of the
  arguments.  The kernel pads the tables to a multiple of 256 rows, scores a tile of 256 entity rows per grid
  point and slices the padding off; the reference broadcasts to [32, 50000, 128] and sums.  The two sides are
  joined index by index: no law of arithmetic is needed beyond 0 + x = x, x - 0 = x and 0 - x = -x, so the
  precondition is never opened.  The kernel's idealization rewrote nothing, so the preservation claim is empty.
-/
import proofs.«154868_j42064909697223_1_alg».proof.Defs
import proofs.«154868_j42064909697223_1_alg».proof.Proof.Gen.Kernel
import proofs.«154868_j42064909697223_1_alg».proof.Proof.Gen.Kernel.Skeleton
import proofs.«154868_j42064909697223_1_alg».proof.Proof.Gen.Kernel.Launch
import proofs.«154868_j42064909697223_1_alg».proof.Proof.Gen.Kernel.Points
import proofs.«154868_j42064909697223_1_alg».proof.Proof.Gen.Kernel.Frame
import proofs.«154868_j42064909697223_1_alg».proof.Proof.Gen.KernelIdeal
import proofs.«154868_j42064909697223_1_alg».proof.Proof.Gen.KernelIdeal.Skeleton
import proofs.«154868_j42064909697223_1_alg».proof.Proof.Gen.KernelIdeal.Launch
import proofs.«154868_j42064909697223_1_alg».proof.Proof.Gen.KernelIdeal.Points
import proofs.«154868_j42064909697223_1_alg».proof.Proof.Gen.KernelIdeal.Frame
import proofs.«154868_j42064909697223_1_alg».proof.Proof.Gen.ReferenceIdeal
import proofs.«154868_j42064909697223_1_alg».proof.Proof.Gen.Pre_finite_inputs
import proofs.«154868_j42064909697223_1_alg».proof.Proof.Gen.ReferenceIdeal.Run
import proofs.«154868_j42064909697223_1_alg».proof.Proof.Gen.ReferenceIdeal.Read
import proofs.«154868_j42064909697223_1_alg».proof.Proof.Around
import proofs.«154868_j42064909697223_1_alg».proof.Proof.RefScore
import Idealize.ShloMosaic.Adequacy
import Idealize.ShloMosaic.Init

set_option maxRecDepth 16384

noncomputable section

/-! ## The batch quantities are one term in both programs -/

namespace Cert.KernelIdeal.Dist

open Idealize.ShloMosaic Idealize.ShloMosaic.TcCoe Idealize.SL.Sem Idealize.ShloMosaic.ValueIdx Idealize.ShloMosaic.StableHlo
open Cert.KernelIdeal Cert.KernelIdeal.Gen RotDist

variable (m : (ℓ : Loc nD τ sig) → Buf (Elt Ideal) ℓ)

set_option maxHeartbeats 4000000 in
/-- The predicted real parts the region finds are the reference's: the head's centre rotated by the relation's phase,
    hc_re cos - hc_im sin, of the gathered rows. -/
theorem predRe_eq (c : Dev nD) : (V m c main_v40 : S32x128.Idx → EReal)
    = Cert.ReferenceIdeal.Read.val_main_v43 (F := Ideal) (m ((c : Thread nD τ).loc main_arg0))
        (m ((c : Thread nD τ).loc main_arg2)) (m ((c : Thread nD τ).loc main_arg4)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results_simp
  rfl

set_option maxHeartbeats 4000000 in
/-- The predicted imaginary parts likewise: hc_re sin + hc_im cos. -/
theorem predIm_eq (c : Dev nD) : (V m c main_v43 : S32x128.Idx → EReal)
    = Cert.ReferenceIdeal.Read.val_main_v46 (F := Ideal) (m ((c : Thread nD τ).loc main_arg0))
        (m ((c : Thread nD τ).loc main_arg2)) (m ((c : Thread nD τ).loc main_arg4)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results_simp
  rfl

set_option maxHeartbeats 4000000 in
/-- The batch's summed radii likewise: the row sums of softplus of the head's and the relation's gathered raw radii,
    as a column. -/
theorem radSum_eq (c : Dev nD) : (V m c main_v46 : S32x1.Idx → EReal)
    = Cert.ReferenceIdeal.Read.val_main_v64 (F := Ideal) (m ((c : Thread nD τ).loc main_arg1))
        (m ((c : Thread nD τ).loc main_arg3)) (m ((c : Thread nD τ).loc main_arg4)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results_simp
  rfl

/-- The reference's result of the kernel's arguments is the kernel's result. -/
theorem reference_eq (c : Dev nD) :
    Cert.ReferenceIdeal.Read.val_main_v70 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      = kernelResult m c := by
  funext i
  obtain ⟨b, n, rfl⟩ : ∃ (b : Fin 32) (n : Fin 50000), i = ix2 b n := ⟨i 0, i 1, eq_ix2 i⟩
  refine (Cert.ReferenceIdeal.RefValue.result_apply _ _ _ _ _ b n).trans ?_
  unfold kernelResult
  rw [predRe_eq m c, predIm_eq m c, radSum_eq m c]

end Cert.KernelIdeal.Dist

/-! ## The claims -/

namespace Cert.Proof

open Idealize.ShloMosaic Idealize.SL.Sem

/-- The kernel as printed runs to its end and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the scores of the 32 batch rows against
    the 50000 entity rows. -/
theorem algebraic : Cert.algebraic_KernelIdeal_ReferenceIdeal := by
  intro m ρ m' ρ' _ hagree
  refine ⟨fun c => Cert.KernelIdeal.Dist.kernelResult m c, Cert.KernelIdeal.Dist.run_scores m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2.1, (hagree c).2.2.2.2]
  exact Cert.KernelIdeal.Dist.reference_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
